-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1x8 : Shape := ⟨2, ![1, 8]⟩
abbrev S8x4096 : Shape := ⟨2, ![8, 4096]⟩
abbrev S1x4096 : Shape := ⟨2, ![1, 4096]⟩
abbrev S4096x1024 : Shape := ⟨2, ![4096, 1024]⟩
abbrev S1x1024 : Shape := ⟨2, ![1, 1024]⟩
abbrev S512x128 : Shape := ⟨2, ![512, 128]⟩
abbrev S512x1024 : Shape := ⟨2, ![512, 1024]⟩
abbrev S512x8 : Shape := ⟨2, ![512, 8]⟩
abbrev S512x4096 : Shape := ⟨2, ![512, 4096]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S1x8, .f32⟩
  | .hbm, ⟨8, _⟩ => ⟨S8x4096, .f32⟩
  | .hbm, ⟨9, _⟩ => ⟨S8x4096, .bf16⟩
  | .hbm, ⟨10, _⟩ => ⟨S1x4096, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S16384x1024, .f32⟩
  | .hbm, ⟨15, _⟩ => ⟨S8x2048x1024, .f32⟩
  | .local _ .vmem, ⟨0, _⟩ => ⟨S512x128, .f32⟩
  | .local _ .vmem, ⟨1, _⟩ => ⟨S512x128, .f32⟩
  | .local _ .vmem, ⟨2, _⟩ => ⟨S1x8, .f32⟩
  | .local _ .vmem, ⟨3, _⟩ => ⟨S8x4096, .bf16⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  shapeCasts_S8_S1x8 : S8.ShapeCasts S1x8
  transposes_S4096x8_S8x4096_1_0 : S4096x8.Transposes [1, 0] S8x4096
  bitsLt_bf16_f32 : FTy.bits .bf16 < FTy.bits .f32
  shapeCasts_S4096_S1x4096 : S4096.ShapeCasts S1x4096
  transposes_S1024x4096_S4096x1024_1_0 : S1024x4096.Transposes [1, 0] S4096x1024
  shapeCasts_S1024_S1x1024 : S1024.ShapeCasts S1x1024
  inb_S512x128_S512x8_0_0 : ∀ a, (![0, 0] : Fin 2 → Nat) a + S512x8.size a ≤ S512x128.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S8x2048x1024 : S16384x1024.ShapeCasts S8x2048x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x1024.size a
  hwx0_0 : ∀ i : grid0.Coords, EltTy.bits .f32 = 32 ∨ (Rect.block (s := S16384x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S1x1x8 : Shape := ⟨3, ![1, 1, 8]⟩
abbrev S8x2048x4096 : Shape := ⟨3, ![8, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S1x1x8, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x4096, .f32⟩
  | .hbm, ⟨12, _⟩ => ⟨S1x1x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S8x2048x1024_S8x2048x8_0_0_0 : S8x2048x1024.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x8_S4096x8_S8x2048x4096_2_1_01_0_n_n_wf : DotDims.WF S8x2048x8 S4096x8 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x8_S4096x8_S8x2048x4096_2_1_01_0_n_n : DotDims S8x2048x8 S4096x8 S8x2048x4096 where
  lhsContracting := [2]
  rhsContracting := [1]
  lhsNonContracting := [0, 1]
  rhsNonContracting := [0]
  lhsBatch := []
  rhsBatch := []
  wf := dot_S8x2048x8_S4096x8_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.Spec.lean ====
/-
  The network applied to one token.

  A token is a row of 1024 numbers, of which only the first eight are read. Entry k of the readout is
  cos (row k + θ k); hidden unit f is max (Σ_k readout k · w1 f k + b1 f, 0); output e is
  Σ_f hidden f · w2 e f + b2 e. Everything is over the extended reals, the sums in index order, each product
  with the activation on the left and the weight on the right.

  `tokenOut` is that map from a token's first eight entries to its 1024 outputs. `wholeOut` reads it over the
  rank-3 argument arrays (token (b, s)), `sheetOut` over the rank-2 arrays the tiled computation works on
  (token r of 16384, weights already transposed to contraction-major order, vectors as one-row sheets).
-/
import Idealize.ShloMosaic.PureOps.Ideal.Laws
import Idealize.ShloMosaic.Lib.ValueIdx

noncomputable section

namespace Cert.Ffn

open Idealize.ShloMosaic Idealize.ShloMosaic.ValueIdx

/-- Column k < 8 as a column of a 1024-wide row. -/
abbrev col (k : Fin 8) : Fin 1024 := ⟨k.val, Nat.lt_of_lt_of_le k.isLt (by decide)⟩

/-- Readout k of a token: the cosine of its k-th entry shifted by the k-th angle. -/
def readout (row8 : Fin 8 → EReal) (θ : Fin 8 → EReal) (k : Fin 8) : EReal :=
  Ideal.cos (row8 k + θ k)

/-- Hidden unit f: the readouts against row f of the first weight matrix, plus the bias, clipped below at zero. -/
def hidden (row8 θ : Fin 8 → EReal) (w1 : Fin 4096 → Fin 8 → EReal) (b1 : Fin 4096 → EReal) (f : Fin 4096) : EReal :=
  max ((∑ k : Fin 8, readout row8 θ k * w1 f k) + b1 f) (Ideal.ofBits .f32 0x00000000#32)

/-- Output e: the hidden units against row e of the second weight matrix, plus the bias. -/
def tokenOut (row8 θ : Fin 8 → EReal) (w1 : Fin 4096 → Fin 8 → EReal) (b1 : Fin 4096 → EReal)
    (w2 : Fin 1024 → Fin 4096 → EReal) (b2 : Fin 1024 → EReal) (e : Fin 1024) : EReal :=
  (∑ f : Fin 4096, hidden row8 θ w1 b1 f * w2 e f) + b2 e

/-- The whole result over the argument arrays as given: entry (b, s, e) is output e of token (b, s). -/
def wholeOut (x : FVec Ideal ⟨3, ![8, 2048, 1024]⟩ .f32) (θ : FVec Ideal ⟨1, ![8]⟩ .f32)
    (w1 : FVec Ideal ⟨2, ![4096, 8]⟩ .f32) (b1 : FVec Ideal ⟨1, ![4096]⟩ .f32)
    (w2 : FVec Ideal ⟨2, ![1024, 4096]⟩ .f32) (b2 : FVec Ideal ⟨1, ![1024]⟩ .f32) :
    FVec Ideal ⟨3, ![8, 2048, 1024]⟩ .f32 := fun i =>
  tokenOut (fun k => x (ix3 (i 0) (i 1) (col k))) (fun k => θ (ix1 k)) (fun f k => w1 (ix2 f k)) (fun f => b1 (ix1 f))
    (fun e f => w2 (ix2 e f)) (fun e => b2 (ix1 e)) (i 2)

/-- The same over the sheets the tiled computation reads: tokens flattened to 16384 rows, the weight matrices
    contraction-major, the vectors as one-row sheets. Entry (r, e) is output e of token r. -/
def sheetOut (X : FVec Ideal ⟨2, ![16384, 1024]⟩ .f32) (Θ : FVec Ideal ⟨2, ![1, 8]⟩ .f32)
    (W1 : FVec Ideal ⟨2, ![8, 4096]⟩ .bf16) (B1 : FVec Ideal ⟨2, ![1, 4096]⟩ .f32)
    (W2 : FVec Ideal ⟨2, ![4096, 1024]⟩ .bf16) (B2 : FVec Ideal ⟨2, ![1, 1024]⟩ .f32) :
    FVec Ideal ⟨2, ![16384, 1024]⟩ .f32 := fun j =>
  tokenOut (fun k => X (ix2 (j 0) (col k))) (fun k => Θ (ix2 (0 : Fin 1) k)) (fun f k => W1 (ix2 k f)) (fun f => B1 (ix2 (0 : Fin 1) f))
    (fun e f => W2 (ix2 f e)) (fun e => B2 (ix2 (0 : Fin 1) e)) (j 1)

end Cert.Ffn

end
-- ==== Proof.RefValue.lean ====
/-
  The reference computes `wholeOut`.

  Read one operation at a time at an index: the slice keeps columns 0..7 of a token; the angle vector is
  broadcast along tokens; the first contraction runs over the eight readouts against row f of w1; the bias is
  broadcast; the clip is a maximum with the zero constant; the second contraction runs over the 4096 hidden
  units against row e of w2; the last bias is broadcast. Each composed index function is identified with the
  plain coordinates once.
-/
import proofs.«149598_j65481071405846_1_alg».proof.Proof.Gen.ReferenceIdeal.Read
import proofs.«149598_j65481071405846_1_alg».proof.Proof.Spec

noncomputable section

namespace Cert.Ffn.Ref

open Idealize.ShloMosaic Idealize.ShloMosaic.ValueIdx
open Cert.ReferenceIdeal Cert.ReferenceIdeal.Read

/-- The readouts of token (b, s). -/
theorem readout_at (x : FVec Ideal S8x2048x1024 .f32) (θ : FVec Ideal S8 .f32) (b : Fin 8) (s : Fin 2048) (k : Fin 8) :
    val_main_v4 (F := Ideal) x θ (ix3 b s k) = readout (fun k => x (ix3 b s (col k))) (fun k => θ (ix1 k)) k := by
  rw [val_main_v4_apply, val_main_v3_apply, val_main_v0_apply, val_main_v2_apply, val_main_v1_apply]
  have e0 : idx_main_v0 (ix3 b s k) = ix3 b s (col k) :=
    funext fun a => Fin.ext (by match a with | ⟨0, _⟩ => rfl | ⟨1, _⟩ => rfl | ⟨2, _⟩ => rfl)
  have e1 : idx_main_v1 (idx_main_v2 (ix3 b s k)) = ix1 k :=
    funext fun a => Fin.ext (by match a with | ⟨0, _⟩ => rfl)
  rw [e0, e1]
  rfl

/-- The hidden units of token (b, s). -/
theorem hidden_at (x : FVec Ideal S8x2048x1024 .f32) (θ : FVec Ideal S8 .f32) (w1 : FVec Ideal S4096x8 .f32)
    (b1 : FVec Ideal S4096 .f32) (b : Fin 8) (s : Fin 2048) (f : Fin 4096) :
    val_main_v9 (F := Ideal) x θ w1 b1 (ix3 b s f)
      = hidden (fun k => x (ix3 b s (col k))) (fun k => θ (ix1 k)) (fun f k => w1 (ix2 f k)) (fun f => b1 (ix1 f)) f := by
  rw [val_main_v9_apply, val_main_v8_apply, val_main_v5_apply, val_main_v7_apply, val_main_v6_apply,
    val_main_call0_v0_apply, val_main_call0_cst_apply]
  have el : ∀ k : Fin 8, lidx_main_v5 (ix3 b s f) k = ix3 b s k := fun k =>
    funext fun a => Fin.ext (by match a with | ⟨0, _⟩ => rfl | ⟨1, _⟩ => rfl | ⟨2, _⟩ => rfl)
  have er : ∀ k : Fin 8, ridx_main_v5 (ix3 b s f) k = ix2 f k := fun k =>
    funext fun a => Fin.ext (by match a with | ⟨0, _⟩ => rfl | ⟨1, _⟩ => rfl)
  have eb : idx_main_v6 (idx_main_v7 (ix3 b s f)) = ix1 f :=
    funext fun a => Fin.ext (by match a with | ⟨0, _⟩ => rfl)
  rw [eb]
  simp only [el, er, readout_at]
  rfl

/-- The outputs of token (b, s): the reference's result is `wholeOut` of the arguments. -/
theorem result_eq (x : FVec Ideal S8x2048x1024 .f32) (θ : FVec Ideal S8 .f32) (w1 : FVec Ideal S4096x8 .f32)
    (b1 : FVec Ideal S4096 .f32) (w2 : FVec Ideal S1024x4096 .f32) (b2 : FVec Ideal S1024 .f32) :
    val_main_v13 (F := Ideal) x θ w1 b1 w2 b2 = wholeOut x θ w1 b1 w2 b2 := by
  funext i
  obtain ⟨b, s, e, rfl⟩ : ∃ (b : Fin 8) (s : Fin 2048) (e : Fin 1024), i = ix3 b s e := ⟨i 0, i 1, i 2, eq_ix3 i⟩
  rw [val_main_v13_apply, val_main_v10_apply, val_main_v12_apply, val_main_v11_apply]
  have el : ∀ f : Fin 4096, lidx_main_v10 (ix3 b s e) f = ix3 b s f := fun f =>
    funext fun a => Fin.ext (by match a with | ⟨0, _⟩ => rfl | ⟨1, _⟩ => rfl | ⟨2, _⟩ => rfl)
  have er : ∀ f : Fin 4096, ridx_main_v10 (ix3 b s e) f = ix2 e f := fun f =>
    funext fun a => Fin.ext (by match a with | ⟨0, _⟩ => rfl | ⟨1, _⟩ => rfl)
  have eb : idx_main_v11 (idx_main_v12 (ix3 b s e)) = ix1 e :=
    funext fun a => Fin.ext (by match a with | ⟨0, _⟩ => rfl)
  rw [eb]
  simp only [el, er, hidden_at]
  rfl

end Cert.Ffn.Ref

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Body.lean ====
/-
  One tile of the kernel computes `tokenOut` of each of its 512 tokens.

  The body adds the angle row to the tile's first eight columns, takes cosines, multiplies by the 8 × 4096 weight
  sheet into a zero accumulator, adds the bias row, clips at zero, multiplies by the 4096 × 1024 weight sheet into a
  zero accumulator and adds the second bias row. Changes of float format are the identity on extended reals, a
  product into a zero accumulator is the plain sum over the contraction index, and a one-row sheet broadcast down the
  rows reads its single row. So entry (p, e) of the stored value is output e of token p.
-/
import proofs.«149598_j65481071405846_1_alg».proof.Proof.Gen.KernelIdeal.Skeleton
import proofs.«149598_j65481071405846_1_alg».proof.Proof.Spec
import proofs.«149598_j65481071405846_1_alg».proof.Proof.LibMatmul
import Idealize.ShloMosaic.Lib.Pipeline.Value
import Idealize.ShloMosaic.Lib.ValueLayout

noncomputable section

namespace Cert.Ffn.Body

open Idealize.ShloMosaic Idealize.ShloMosaic.ValueIdx
open Cert.KernelIdeal Cert.KernelIdeal.Gen

/-- The first product, read at (p, f). -/
theorem product1_at (l : FVec Ideal S512x8 .bf16) (r : FVec Ideal S8x4096 .bf16) (p : Fin 512) (f : Fin 4096) :
    matmul dot_S512x8_S8x4096_S512x4096_1_0_0_1_n_n none l r (constant S512x4096 .f32 0x00000000#32) (ix2 p f)
      = ∑ k : Fin 8, l (ix2 p k) * r (ix2 k f) :=
  Cert.Matmul.matmul_plain_apply none l r p f

/-- The second product, read at (p, e). -/
theorem product2_at (l : FVec Ideal S512x4096 .bf16) (r : FVec Ideal S4096x1024 .bf16) (p : Fin 512) (e : Fin 1024) :
    matmul dot_S512x4096_S4096x1024_S512x1024_1_0_0_1_n_n none l r (constant S512x1024 .f32 0x00000000#32) (ix2 p e)
      = ∑ f : Fin 4096, l (ix2 p f) * r (ix2 f e) :=
  Cert.Matmul.matmul_plain_apply none l r p e

/-- Entry (p, e) of what the body stores is output e of token p of the tile. -/
theorem stored_at (v0 : Vec Ideal S512x8 .f32) (v2 : Vec Ideal S1x8 .f32) (v8 : Vec Ideal S8x4096 .bf16)
    (v11 : Vec Ideal S1x4096 .f32) (v18 : Vec Ideal S4096x1024 .bf16) (v21 : Vec Ideal S1x1024 .f32)
    (p : Fin 512) (e : Fin 1024) :
    k0_pay1 (F := Ideal) v0 v2 v8 v11 v18 v21 (ix2 p e)
      = tokenOut (fun k => v0 (ix2 p k)) (fun k => v2 (ix2 (0 : Fin 1) k)) (fun f k => v8 (ix2 k f))
          (fun f => v11 (ix2 (0 : Fin 1) f)) (fun e f => v18 (ix2 f e)) (fun e => v21 (ix2 (0 : Fin 1) e)) e := by
  unfold k0_pay1
  simp only [shapeCast_self]
  refine (addf_apply _ _ _).trans ?_
  unfold tokenOut
  refine congrArg₂ (· + ·) ?_ (broadcastTo_1b_ab_apply v21 _ p e)
  refine (product2_at _ _ p e).trans ?_
  refine Finset.sum_congr rfl fun f _ => ?_
  refine congrArg (· * v18 (ix2 f e)) ?_
  show max ((matmul (F := Ideal) dot_S512x8_S8x4096_S512x4096_1_0_0_1_n_n none _ v8 (constant S512x4096 .f32 0x00000000#32) (ix2 p f) : EReal)
      + (broadcastTo S512x4096 v11 broadcasts_S1x4096_S512x4096 (ix2 p f) : EReal)) (Ideal.ofBits .f32 0x00000000#32) = _
  unfold hidden
  refine congrArg (max · (Ideal.ofBits .f32 0x00000000#32)) ?_
  refine congrArg₂ (· + ·) ?_ (broadcastTo_1b_ab_apply v11 _ p f)
  refine (product1_at _ _ p f).trans ?_
  refine Finset.sum_congr rfl fun k _ => ?_
  refine congrArg (· * v8 (ix2 k f)) ?_
  show Ideal.cos ((v0 (ix2 p k) : EReal) + (broadcastTo S512x8 v2 broadcasts_S1x8_S512x8 (ix2 p k) : EReal)) = _
  unfold readout
  rw [broadcastTo_1b_ab_apply v2 _ p k]

end Cert.Ffn.Body

end
-- ==== Proof.Blocks.lean ====
/-
  The result sheet after the tiled run.

  The grid has 32 points; point t works on rows 512·t … 512·t + 511. It reads the first 128 columns of those rows
  (of which the body loads the first eight), the whole of each weight and bias sheet, and writes back all 1024
  columns of those rows. By the tile lemma, what point t writes back is rows 512·t … of `sheetOut` of the sheets as the
  region finds them; the 32 row bands cover the sheet; so the sheet ends holding `sheetOut`.
-/
import proofs.«149598_j65481071405846_1_alg».proof.Proof.Gen.KernelIdeal.Frame
import proofs.«149598_j65481071405846_1_alg».proof.Proof.Body
import Idealize.ShloMosaic.Lib.Pipeline.Value

set_option maxRecDepth 16384

noncomputable section

namespace Cert.Ffn.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The printed block index maps over the grid: the token tile and the result tile move with the point along the
    rows, every other window stays at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's tile is row 512·t + p of the sheet. -/
abbrev sheetRow (t : Fin cfg0.N) (p : Fin 512) : Fin 16384 :=
  ⟨t.val * 512 + p.val, by have := t.isLt; have h : cfg0.N = 32 := N_0; have := p.isLt; omega⟩

/-- What the body loads from the token tile at (p, k) is the token sheet at (512·t + p, k). -/
theorem tokens_at (c : Dev nD) (t : Fin cfg0.N) (p : Fin 512) (k : Fin 8) :
    View.ld (iblk m c 0 t) r0_0 (ix2 p k) = V m c main_v0 (ix2 (sheetRow t p) (col k)) := by
  obtain ⟨e0, e1, -⟩ := block_index t
  show V m c main_v0 (((cfg0.win 0).blk t).view.emb (r0_0.emb (ix2 p k))) = V m c main_v0 (ix2 (sheetRow t p) (col k))
  refine congrArg (V m c main_v0) (funext fun a => Fin.ext ?_)
  match a with
  | ⟨0, _⟩ => show win0_0.index t (0 : Fin 2) * 512 + 1 * (0 + 1 * p.val) = t.val * 512 + p.val; omega
  | ⟨1, _⟩ => show win0_0.index t (1 : Fin 2) * 128 + 1 * (0 + 1 * k.val) = k.val; omega

/-- The angle row the body loads is the angle sheet's. -/
theorem angles_at (c : Dev nD) (t : Fin cfg0.N) (k : Fin 8) :
    iblk m c 1 t (ix2 (0 : Fin 1) k) = V m c main_v1 (ix2 (0 : Fin 1) k) := by
  obtain ⟨-, -, e0, e1, -⟩ := block_index t
  show V m c main_v1 (((cfg0.win 1).blk t).view.emb (ix2 (0 : Fin 1) k)) = V m c main_v1 (ix2 (0 : Fin 1) k)
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 8 + 1 * k.val = k.val; omega

/-- The first weight sheet as loaded is the sheet. -/
theorem weights1_at (c : Dev nD) (t : Fin cfg0.N) (k : Fin 8) (f : Fin 4096) :
    iblk m c 2 t (ix2 k f) = V m c main_v3 (ix2 k f) := by
  obtain ⟨-, -, -, -, e0, e1, -⟩ := block_index t
  show V m c main_v3 (((cfg0.win 2).blk t).view.emb (ix2 k f)) = V m c main_v3 (ix2 k f)
  refine congrArg (V m c main_v3) (funext fun a => Fin.ext ?_)
  match a with
  | ⟨0, _⟩ => show win0_2.index t (0 : Fin 2) * 8 + 1 * k.val = k.val; omega
  | ⟨1, _⟩ => show win0_2.index t (1 : Fin 2) * 4096 + 1 * f.val = f.val; omega

/-- The first bias row as loaded is the sheet's. -/
theorem bias1_at (c : Dev nD) (t : Fin cfg0.N) (f : Fin 4096) :
    iblk m c 3 t (ix2 (0 : Fin 1) f) = V m c main_v4 (ix2 (0 : Fin 1) f) := by
  obtain ⟨-, -, -, -, -, -, e0, e1, -⟩ := block_index t
  show V m c main_v4 (((cfg0.win 3).blk t).view.emb (ix2 (0 : Fin 1) f)) = V m c main_v4 (ix2 (0 : Fin 1) f)
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 4096 + 1 * f.val = f.val; omega

/-- The second weight sheet as loaded is the sheet. -/
theorem weights2_at (c : Dev nD) (t : Fin cfg0.N) (f : Fin 4096) (e : Fin 1024) :
    iblk m c 4 t (ix2 f e) = V m c main_v6 (ix2 f e) := by
  obtain ⟨-, -, -, -, -, -, -, -, e0, e1, -⟩ := block_index t
  show V m c main_v6 (((cfg0.win 4).blk t).view.emb (ix2 f e)) = V m c main_v6 (ix2 f e)
  refine congrArg (V m c main_v6) (funext fun a => Fin.ext ?_)
  match a with
  | ⟨0, _⟩ => show win0_4.index t (0 : Fin 2) * 4096 + 1 * f.val = f.val; omega
  | ⟨1, _⟩ => show win0_4.index t (1 : Fin 2) * 1024 + 1 * e.val = e.val; omega

/-- The second bias row as loaded is the sheet's. -/
theorem bias2_at (c : Dev nD) (t : Fin cfg0.N) (e : Fin 1024) :
    iblk m c 5 t (ix2 (0 : Fin 1) e) = V m c main_v7 (ix2 (0 : Fin 1) e) := by
  obtain ⟨-, -, -, -, -, -, -, -, -, -, e0, e1, -⟩ := block_index t
  show V m c main_v7 (((cfg0.win 5).blk t).view.emb (ix2 (0 : Fin 1) e)) = V m c main_v7 (ix2 (0 : Fin 1) e)
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 1024 + 1 * e.val = e.val; omega

/-- Entry (p, e) of point t's result tile sits at (512·t + p, e) of the result sheet. -/
theorem result_place (t : Fin cfg0.N) (p : Fin 512) (e : Fin 1024) :
    ((cfg0.win 6).blk t).view.emb (ix2 p e) = ix2 (sheetRow t p) e := by
  obtain ⟨-, -, -, -, -, -, -, -, -, -, -, -, e0, e1⟩ := block_index t
  refine funext fun a => Fin.ext ?_
  match a with
  | ⟨0, _⟩ => show win0_6.index t (0 : Fin 2) * 512 + 1 * p.val = t.val * 512 + p.val; omega
  | ⟨1, _⟩ => show win0_6.index t (1 : Fin 2) * 1024 + 1 * e.val = e.val; omega

/-- The result sheet over the sheets as the region finds them. -/
abbrev target (c : Dev nD) : FVec Ideal S16384x1024 .f32 :=
  sheetOut (V m c main_v0) (V m c main_v1) (V m c main_v3) (V m c main_v4) (V m c main_v6) (V m c main_v7)

/-- What point t writes back is its row band of the target sheet. -/
theorem written_back (c : Dev nD) (t : Fin cfg0.N) :
    (dats m 0 c).flushed 6 t = ((cfg0.win 6).blk t).view.read (Elt Ideal) (target m c) := by
  show (cfg0.win 6).cut (grid0.coords t) ((dats m 0 c).after 6 t) = _
  rw [after0_6]
  unfold out0_6
  rw [View.canon_unit_zero origin]
  simp only [View.ld_unit_zero (S := S1x8) origin, View.ld_unit_zero (S := S8x4096) origin,
    View.ld_unit_zero (S := S1x4096) origin, View.ld_unit_zero (S := S4096x1024) origin,
    View.ld_unit_zero (S := S1x1024) origin]
  funext j
  obtain ⟨p, e, rfl⟩ : ∃ (p : Fin 512) (e : Fin 1024), j = ix2 p e := ⟨j 0, j 1, eq_ix2 j⟩
  show k0_pay1 (F := Ideal) (View.ld (iblk m c 0 t) r0_0) (iblk m c 1 t) (iblk m c 2 t) (iblk m c 3 t) (iblk m c 4 t) (iblk m c 5 t) (ix2 p e)
    = target m c (((cfg0.win 6).blk t).view.emb (ix2 p e))
  rw [result_place t p e]
  refine (Body.stored_at (View.ld (iblk m c 0 t) r0_0) (iblk m c 1 t) (iblk m c 2 t) (iblk m c 3 t) (iblk m c 4 t) (iblk m c 5 t) p e).trans ?_
  have h0 : (fun k : Fin 8 => (View.ld (iblk m c 0 t) r0_0 (ix2 p k) : EReal)) = fun k => V m c main_v0 (ix2 (sheetRow t p) (col k)) :=
    funext fun k => tokens_at m c t p k
  have h1 : (fun k : Fin 8 => (iblk m c 1 t (ix2 (0 : Fin 1) k) : EReal)) = fun k => V m c main_v1 (ix2 (0 : Fin 1) k) :=
    funext fun k => angles_at m c t k
  have h2 : (fun (f : Fin 4096) (k : Fin 8) => (iblk m c 2 t (ix2 k f) : EReal)) = fun f k => V m c main_v3 (ix2 k f) :=
    funext fun f => funext fun k => weights1_at m c t k f
  have h3 : (fun f : Fin 4096 => (iblk m c 3 t (ix2 (0 : Fin 1) f) : EReal)) = fun f => V m c main_v4 (ix2 (0 : Fin 1) f) :=
    funext fun f => bias1_at m c t f
  have h4 : (fun (e : Fin 1024) (f : Fin 4096) => (iblk m c 4 t (ix2 f e) : EReal)) = fun e f => V m c main_v6 (ix2 f e) :=
    funext fun e => funext fun f => weights2_at m c t f e
  have h5 : (fun e : Fin 1024 => (iblk m c 5 t (ix2 (0 : Fin 1) e) : EReal)) = fun e => V m c main_v7 (ix2 (0 : Fin 1) e) :=
    funext fun e => bias2_at m c t e
  exact congrFun (congr (congr (congr (congr (congr (congrArg tokenOut h0) h1) h2) h3) h4) h5) e

/-- An index of the result sheet is in point t's block iff each coordinate is in the block's range on its axis. -/
theorem in_band (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v8).slice (win0_6.rect t)).set ↔ _
  rw [View.set_slice_whole, Rect.mem_set_unit]
  exact Iff.rfl

/-- Row r lies in the band of point r / 512. -/
theorem bands_cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  let t : Fin cfg0.N := ⟨(i 0).val / 512, by omega⟩
  have ht : t.val = (i 0).val / 512 := rfl
  obtain ⟨-, -, -, -, -, -, -, -, -, -, -, -, e0, e1⟩ := block_index t
  refine ⟨t, flush0_6 t, ?_⟩
  rw [in_band]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The result sheet after the run is the target sheet. -/
theorem sheet_after (c : Dev nD) : (dats m 0 c).arrAt 6 cfg0.N = target m c :=
  (dats m 0 c).arrAt_eq_of_cover 6 (target m c) (fun t _ => written_back m c t) bands_cover

end Cert.Ffn.Blocks

end
-- ==== Proof.Sheets.lean ====
/-
  From the sheets back to the arguments.

  The tiled computation reads the token array flattened to 16384 rows (token (b, s) is row b · 2048 + s), the angle
  and bias vectors as one-row sheets, and the two weight matrices transposed (and their float format changed, which
  is the identity on extended reals); its result sheet is reshaped to rank 3 at the end. Read at an index, each of
  these is a relabelling, so the reshaped `sheetOut` of the prepared sheets is `wholeOut` of the arguments.
-/
import proofs.«149598_j65481071405846_1_alg».proof.Proof.Spec
import Idealize.ShloMosaic.Lib.Pipeline.Value
import Idealize.ShloMosaic.Lib.ValueLayout

noncomputable section

namespace Cert.Ffn

open Idealize.ShloMosaic Idealize.ShloMosaic.ValueIdx

/-- Token (b, s) is row b · 2048 + s of the flattened array. -/
abbrev flatRow (b : Fin 8) (s : Fin 2048) : Fin 16384 :=
  ⟨b.val * 2048 + s.val, by have := b.isLt; have := s.isLt; omega⟩

/-- The flattened token array at (row of (b, s), c) is the argument at (b, s, c). -/
theorem flatten_at (x : FVec Ideal ⟨3, ![8, 2048, 1024]⟩ .f32)
    (h : (⟨3, ![8, 2048, 1024]⟩ : Shape).ShapeCasts ⟨2, ![16384, 1024]⟩) (b : Fin 8) (s : Fin 2048) (c : Fin 1024) :
    shapeCast ⟨2, ![16384, 1024]⟩ x h (ix2 (flatRow b s) c) = x (ix3 b s c) :=
  shapeCast_apply x h _ _ (by rw [Shape.rowMajor_val_three, Shape.rowMajor_val_two]; rfl)

/-- The result sheet reshaped to rank 3, at (b, s, e), is the sheet at (row of (b, s), e). -/
theorem unflatten_at (Y : FVec Ideal ⟨2, ![16384, 1024]⟩ .f32)
    (h : (⟨2, ![16384, 1024]⟩ : Shape).ShapeCasts ⟨3, ![8, 2048, 1024]⟩) (b : Fin 8) (s : Fin 2048) (e : Fin 1024) :
    shapeCast ⟨3, ![8, 2048, 1024]⟩ Y h (ix3 b s e) = Y (ix2 (flatRow b s) e) :=
  shapeCast_apply Y h _ _ (by rw [Shape.rowMajor_val_three, Shape.rowMajor_val_two]; rfl)

/-- The reshaped result sheet of the prepared sheets is `wholeOut` of the arguments. -/
theorem sheets_to_whole (x : FVec Ideal ⟨3, ![8, 2048, 1024]⟩ .f32) (θ : FVec Ideal ⟨1, ![8]⟩ .f32)
    (w1 : FVec Ideal ⟨2, ![4096, 8]⟩ .f32) (b1 : FVec Ideal ⟨1, ![4096]⟩ .f32)
    (w2 : FVec Ideal ⟨2, ![1024, 4096]⟩ .f32) (b2 : FVec Ideal ⟨1, ![1024]⟩ .f32)
    (hx : (⟨3, ![8, 2048, 1024]⟩ : Shape).ShapeCasts ⟨2, ![16384, 1024]⟩)
    (hθ : (⟨1, ![8]⟩ : Shape).ShapeCasts ⟨2, ![1, 8]⟩)
    (hw1 : (⟨2, ![4096, 8]⟩ : Shape).Transposes [1, 0] ⟨2, ![8, 4096]⟩)
    (hb1 : (⟨1, ![4096]⟩ : Shape).ShapeCasts ⟨2, ![1, 4096]⟩)
    (hw2 : (⟨2, ![1024, 4096]⟩ : Shape).Transposes [1, 0] ⟨2, ![4096, 1024]⟩)
    (hb2 : (⟨1, ![1024]⟩ : Shape).ShapeCasts ⟨2, ![1, 1024]⟩)
    (ho : (⟨2, ![16384, 1024]⟩ : Shape).ShapeCasts ⟨3, ![8, 2048, 1024]⟩)
    (hf : FTy.bf16.bits < FTy.f32.bits) :
    shapeCast ⟨3, ![8, 2048, 1024]⟩
      (sheetOut (shapeCast ⟨2, ![16384, 1024]⟩ x hx) (shapeCast ⟨2, ![1, 8]⟩ θ hθ)
        (truncf .bf16 (transpose ⟨2, ![8, 4096]⟩ [1, 0] w1 hw1) hf) (shapeCast ⟨2, ![1, 4096]⟩ b1 hb1)
        (truncf .bf16 (transpose ⟨2, ![4096, 1024]⟩ [1, 0] w2 hw2) hf) (shapeCast ⟨2, ![1, 1024]⟩ b2 hb2)) ho
      = wholeOut x θ w1 b1 w2 b2 := by
  funext i
  obtain ⟨b, s, e, rfl⟩ : ∃ (b : Fin 8) (s : Fin 2048) (e : Fin 1024), i = ix3 b s e := ⟨i 0, i 1, i 2, eq_ix3 i⟩
  rw [unflatten_at]
  have h0 : (fun k : Fin 8 => shapeCast ⟨2, ![16384, 1024]⟩ x hx (ix2 (flatRow b s) (col k))) = fun k => x (ix3 b s (col k)) :=
    funext fun k => flatten_at x hx b s (col k)
  have h1 : (fun k : Fin 8 => shapeCast ⟨2, ![1, 8]⟩ θ hθ (ix2 (0 : Fin 1) k)) = fun k => θ (ix1 k) :=
    funext fun k => shapeCast_a_1a_apply θ hθ 0 k
  have h2 : (fun (f : Fin 4096) (k : Fin 8) => (truncf .bf16 (transpose ⟨2, ![8, 4096]⟩ [1, 0] w1 hw1) hf : FVec Ideal ⟨2, ![8, 4096]⟩ .bf16) (ix2 k f))
      = fun f k => w1 (ix2 f k) :=
    funext fun f => funext fun k => transpose_ix2_apply w1 hw1 k f
  have h3 : (fun f : Fin 4096 => shapeCast ⟨2, ![1, 4096]⟩ b1 hb1 (ix2 (0 : Fin 1) f)) = fun f => b1 (ix1 f) :=
    funext fun f => shapeCast_a_1a_apply b1 hb1 0 f
  have h4 : (fun (e : Fin 1024) (f : Fin 4096) => (truncf .bf16 (transpose ⟨2, ![4096, 1024]⟩ [1, 0] w2 hw2) hf : FVec Ideal ⟨2, ![4096, 1024]⟩ .bf16) (ix2 f e))
      = fun e f => w2 (ix2 e f) :=
    funext fun e => funext fun f => transpose_ix2_apply w2 hw2 f e
  have h5 : (fun e : Fin 1024 => shapeCast ⟨2, ![1, 1024]⟩ b2 hb2 (ix2 (0 : Fin 1) e)) = fun e => b2 (ix1 e) :=
    funext fun e => shapeCast_a_1a_apply b2 hb2 0 e
  exact congrFun (congr (congr (congr (congr (congr (congrArg tokenOut h0) h1) h2) h3) h4) h5) e

end Cert.Ffn

end
-- ==== Proof.Tail.lean ====
/-
  The kernel program's result is `wholeOut` of its arguments.

  Before the tiled region the program flattens the token array, lays the vectors out as one-row sheets and
  transposes the weight matrices; after it, it reshapes the result sheet to rank 3. With the sheet after the region
  known (`sheetOut` of the prepared sheets), the reshaped result is `wholeOut` of the arguments, and the argument
  arrays end as they began.
-/
import proofs.«149598_j65481071405846_1_alg».proof.Proof.Blocks
import proofs.«149598_j65481071405846_1_alg».proof.Proof.Sheets
import Idealize.ShloMosaic.Lib.StableHlo.Run

set_option maxRecDepth 16384

noncomputable section

namespace Cert.Ffn.Tail

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The token sheet is the token array flattened. -/
theorem tokens_sheet (c : Dev nD) :
    (V m c main_v0 : S16384x1024.Idx → EReal)
      = shapeCast S16384x1024 (m ((c : Thread nD τ).loc main_arg0)) shapeCasts_S8x2048x1024_S16384x1024 := by
  show StableHlo.after hostOps0 (fun b => m (c, b)) (Proc.devRef .tc main_v0) = _
  after_results
  rfl

/-- The angle sheet is the angle vector as one row. -/
theorem angles_sheet (c : Dev nD) :
    (V m c main_v1 : S1x8.Idx → EReal) = shapeCast S1x8 (m ((c : Thread nD τ).loc main_arg1)) shapeCasts_S8_S1x8 := by
  show StableHlo.after hostOps0 (fun b => m (c, b)) (Proc.devRef .tc main_v1) = _
  after_results
  rfl

/-- The first weight sheet is the first weight matrix transposed. -/
theorem weights1_sheet (c : Dev nD) :
    (V m c main_v3 : S8x4096.Idx → EReal)
      = truncf (F := Ideal) .bf16 (transpose S8x4096 [1, 0] (m ((c : Thread nD τ).loc main_arg2)) transposes_S4096x8_S8x4096_1_0) bitsLt_bf16_f32 := by
  show StableHlo.after hostOps0 (fun b => m (c, b)) (Proc.devRef .tc main_v3) = _
  after_results

/-- The first bias sheet is the first bias vector as one row. -/
theorem bias1_sheet (c : Dev nD) :
    (V m c main_v4 : S1x4096.Idx → EReal) = shapeCast S1x4096 (m ((c : Thread nD τ).loc main_arg3)) shapeCasts_S4096_S1x4096 := by
  show StableHlo.after hostOps0 (fun b => m (c, b)) (Proc.devRef .tc main_v4) = _
  after_results
  rfl

/-- The second weight sheet is the second weight matrix transposed. -/
theorem weights2_sheet (c : Dev nD) :
    (V m c main_v6 : S4096x1024.Idx → EReal)
      = truncf (F := Ideal) .bf16 (transpose S4096x1024 [1, 0] (m ((c : Thread nD τ).loc main_arg4)) transposes_S1024x4096_S4096x1024_1_0) bitsLt_bf16_f32 := by
  show StableHlo.after hostOps0 (fun b => m (c, b)) (Proc.devRef .tc main_v6) = _
  after_results

/-- The second bias sheet is the second bias vector as one row. -/
theorem bias2_sheet (c : Dev nD) :
    (V m c main_v7 : S1x1024.Idx → EReal) = shapeCast S1x1024 (m ((c : Thread nD τ).loc main_arg5)) shapeCasts_S1024_S1x1024 := by
  show StableHlo.after hostOps0 (fun b => m (c, b)) (Proc.devRef .tc main_v7) = _
  after_results
  rfl

/-- The program's result: the result sheet after the region, reshaped. -/
theorem result_is_reshape (c : Dev nD) :
    Pipeline.afterTail₀ cfgs (dats m) 0 (V0 m) [hostOps1] c main_v9
      = shapeCast S8x2048x1024 (Blocks.target m c) shapeCasts_S16384x1024_S8x2048x1024 := by
  unfold Pipeline.afterTail₀
  show StableHlo.after hostOps1 _ (Proc.devRef .tc main_v9) = _
  after_results
  have hw : Pipeline.withArrays spec0 c (V0 m c) (fun w => (dats m 0 c).arrAt w cfg0.N) (Proc.devRef .tc (Pipeline.arrRef spec0 6))
      = Blocks.target m c :=
    (Pipeline.withArrays_arr spec0 launch0.win.arr_inj c (V0 m c) (fun w => (dats m 0 c).arrAt w cfg0.N) 6).trans (Blocks.sheet_after m c)
  exact congrArg (fun Y : S16384x1024.Idx → EReal => shapeCast S8x2048x1024 Y shapeCasts_S16384x1024_S8x2048x1024) hw

/-- The program's result is `wholeOut` of the argument arrays. -/
theorem result_eq (c : Dev nD) :
    Pipeline.afterTail₀ cfgs (dats m) 0 (V0 m) [hostOps1] c main_v9
      = wholeOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (result_is_reshape m c).trans ?_
  unfold Blocks.target
  rw [tokens_sheet, angles_sheet, weights1_sheet, bias1_sheet, weights2_sheet, bias2_sheet]
  exact sheets_to_whole _ _ _ _ _ _ _ _ _ _ _ _ _ _

/-- Every weakly fair execution of the kernel program terminates with its result at `wholeOut` of the arguments and
    the arguments unchanged. -/
theorem run : θ_run defs (onTc (τ := τ) (main (F := Ideal))) ⟨m, fun _ => 0, ρ⟩ fun r => ∀ c : Dev nD,
      r.2.mem ((c.tc : Thread nD τ).loc main_v9)
        = wholeOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Ffn.Tail

end
-- ==== Proof.lean ====
/-
  The kernel and the reference compute the same feed-forward layer over the extended reals.

  For each of the 8 · 2048 tokens both programs take the cosine of the token's first eight entries shifted by the
  angle vector, multiply by the first weight matrix (a sum over the eight readouts, readout on the left), add the
  first bias, clip at zero, multiply by the second weight matrix (a sum over the 4096 hidden units in index order,
  hidden unit on the left), and add the second bias: `Cert.Ffn.wholeOut`. The reference does it with two contractions
  over rank-3 arrays; the kernel flattens the tokens to 16384 rows, transposes the weights, runs 32 tiles of 512
  tokens and reshapes the result back. Changes of float format are the identity on extended reals, and the sums and
  products are the same terms in the same order on both sides, so no law of arithmetic beyond reindexing is used and
  the finiteness of the inputs is never opened.

  The three frames are the generated ones (the reference's is its generated run with the result dropped); the
  idealization rewrote nothing, so `preserves` is trivial.
-/
import proofs.«149598_j65481071405846_1_alg».proof.Defs
import proofs.«149598_j65481071405846_1_alg».proof.Proof.Gen.Kernel
import proofs.«149598_j65481071405846_1_alg».proof.Proof.Gen.Kernel.Skeleton
import proofs.«149598_j65481071405846_1_alg».proof.Proof.Gen.Kernel.Launch
import proofs.«149598_j65481071405846_1_alg».proof.Proof.Gen.Kernel.Points
import proofs.«149598_j65481071405846_1_alg».proof.Proof.Gen.Kernel.Frame
import proofs.«149598_j65481071405846_1_alg».proof.Proof.Gen.KernelIdeal
import proofs.«149598_j65481071405846_1_alg».proof.Proof.Gen.KernelIdeal.Skeleton
import proofs.«149598_j65481071405846_1_alg».proof.Proof.Gen.KernelIdeal.Launch
import proofs.«149598_j65481071405846_1_alg».proof.Proof.Gen.KernelIdeal.Points
import proofs.«149598_j65481071405846_1_alg».proof.Proof.Gen.KernelIdeal.Frame
import proofs.«149598_j65481071405846_1_alg».proof.Proof.Gen.ReferenceIdeal
import proofs.«149598_j65481071405846_1_alg».proof.Proof.Gen.ReferenceIdeal.Run
import proofs.«149598_j65481071405846_1_alg».proof.Proof.Gen.ReferenceIdeal.Read
import proofs.«149598_j65481071405846_1_alg».proof.Proof.Gen.Pre_finite_inputs
import proofs.«149598_j65481071405846_1_alg».proof.Proof.RefValue
import proofs.«149598_j65481071405846_1_alg».proof.Proof.Tail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at `wholeOut` of the (agreeing) arguments. -/
theorem algebraic : Cert.algebraic_KernelIdeal_ReferenceIdeal := by
  intro m ρ m' ρ' _ hagree
  refine ⟨_, Cert.Ffn.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Ffn.Ref.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
